-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1023 : Shape := ⟨2, ![65536, 1023]⟩
abbrev S_ : Shape := ⟨0, ![]⟩

class Facts : Prop where
  bcast_S_S65536x1023 : S_.BroadcastsInDim S65536x1023 (![] : Fin 0 → Fin S65536x1023.rank)
  reducesTo_S65536x1023_S_d0_1 : S65536x1023.ReducesTo [0, 1] S_
  h_S_ : 0 < S_.numel

variable [Facts]

def fn {F : FTy → Type} [FloatOps F] (main_arg0 : FVec F S65536x1023 .f32) : IVec S_ 1 :=
  let main_v0 : FVec F S65536x1023 .f32 := Host.absf main_arg0
  let main_cst : FVec F S_ .f32 := constant S_ .f32 0x7F800000#32
  let main_v1 : FVec F S65536x1023 .f32 := broadcastInDim S65536x1023 ![] bcast_S_S65536x1023 main_cst
  let main_v2 : IVec S65536x1023 1 := cmpf .olt main_v0 main_v1
  let main_c : IVec S_ 1 := constantI S_ 1 1#1
  let main_v3 : IVec S_ 1 := (fun x v => Host.reduce IntOp.andi x v reducesTo_S65536x1023_S_d0_1 h_S_) main_v2 main_c
  main_v3
-- ==== Kernel.lean ====
abbrev S65536x1023 : Shape := ⟨2, ![65536, 1023]⟩
abbrev S65536x1024 : Shape := ⟨2, ![65536, 1024]⟩
abbrev S512x1023 : Shape := ⟨2, ![512, 1023]⟩
abbrev S512x1024 : Shape := ⟨2, ![512, 1024]⟩
abbrev S1023x512 : Shape := ⟨2, ![1023, 512]⟩
abbrev S1x512 : Shape := ⟨2, ![1, 512]⟩
abbrev S1x1x512 : Shape := ⟨3, ![1, 1, 512]⟩
abbrev S1x2x512 : Shape := ⟨3, ![1, 2, 512]⟩
abbrev S2x512 : Shape := ⟨2, ![2, 512]⟩
abbrev S2x1x512 : Shape := ⟨3, ![2, 1, 512]⟩
abbrev S2x2x512 : Shape := ⟨3, ![2, 2, 512]⟩
abbrev S4x512 : Shape := ⟨2, ![4, 512]⟩
abbrev S4x1x512 : Shape := ⟨3, ![4, 1, 512]⟩
abbrev S4x2x512 : Shape := ⟨3, ![4, 2, 512]⟩
abbrev S8x512 : Shape := ⟨2, ![8, 512]⟩
abbrev S8x1x512 : Shape := ⟨3, ![8, 1, 512]⟩
abbrev S8x2x512 : Shape := ⟨3, ![8, 2, 512]⟩
abbrev S16x512 : Shape := ⟨2, ![16, 512]⟩
abbrev S16x1x512 : Shape := ⟨3, ![16, 1, 512]⟩
abbrev S16x2x512 : Shape := ⟨3, ![16, 2, 512]⟩
abbrev S32x512 : Shape := ⟨2, ![32, 512]⟩
abbrev S32x1x512 : Shape := ⟨3, ![32, 1, 512]⟩
abbrev S32x2x512 : Shape := ⟨3, ![32, 2, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S256x1x512 : Shape := ⟨3, ![256, 1, 512]⟩
abbrev S256x2x512 : Shape := ⟨3, ![256, 2, 512]⟩
abbrev S512x512 : Shape := ⟨2, ![512, 512]⟩
abbrev S512x1x512 : Shape := ⟨3, ![512, 1, 512]⟩
abbrev S512x2x512 : Shape := ⟨3, ![512, 2, 512]⟩
abbrev S1024x512 : Shape := ⟨2, ![1024, 512]⟩

abbrev nBuf : Space → Nat
  | .hbm => 2
  | .vmem => 4
  | .smem => 0
  | _ => 0

abbrev bufTy : (tb : Table) → Fin (tcTables nBuf tb) → BufTy
  | .hbm, ⟨0, _⟩ => ⟨S65536x1023, .f32⟩
  | .hbm, ⟨1, _⟩ => ⟨S65536x1024, .f32⟩
  | .local _ .vmem, ⟨0, _⟩ => ⟨S512x1023, .f32⟩
  | .local _ .vmem, ⟨1, _⟩ => ⟨S512x1023, .f32⟩
  | .local _ .vmem, ⟨2, _⟩ => ⟨S512x1024, .f32⟩
  | .local _ .vmem, ⟨3, _⟩ => ⟨S512x1024, .f32⟩
  | _, _ => ⟨S65536x1023, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1023 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x1023_S512x1023_0_0 : ∀ a, (![0, 0] : Fin 2 → Nat) a + S512x1023.size a ≤ S512x1023.size a
  h_S512x1023 : 0 < S512x1023.numel
  transposes_S512x1023_p1_0_S1023x512 : S512x1023.Transposes [1, 0] S1023x512
  slices_S1023x512_o0_0_S1x512 : S1023x512.Slices ![0, 0] S1x512
  shapeCasts_S1x512_S1x1x512 : S1x512.ShapeCasts S1x1x512
  concatenates_S1x1x512_S1x1x512_S1x2x512_d1 : Shape.Concatenates [S1x1x512, S1x1x512] S1x2x512 1
  shapeCasts_S1x2x512_S2x512 : S1x2x512.ShapeCasts S2x512
  slices_S1023x512_o1_0_S2x512 : S1023x512.Slices ![1, 0] S2x512
  shapeCasts_S2x512_S2x1x512 : S2x512.ShapeCasts S2x1x512
  concatenates_S2x1x512_S2x1x512_S2x2x512_d1 : Shape.Concatenates [S2x1x512, S2x1x512] S2x2x512 1
  shapeCasts_S2x2x512_S4x512 : S2x2x512.ShapeCasts S4x512
  slices_S1023x512_o3_0_S4x512 : S1023x512.Slices ![3, 0] S4x512
  shapeCasts_S4x512_S4x1x512 : S4x512.ShapeCasts S4x1x512
  concatenates_S4x1x512_S4x1x512_S4x2x512_d1 : Shape.Concatenates [S4x1x512, S4x1x512] S4x2x512 1
  shapeCasts_S4x2x512_S8x512 : S4x2x512.ShapeCasts S8x512
  slices_S1023x512_o7_0_S8x512 : S1023x512.Slices ![7, 0] S8x512
  shapeCasts_S8x512_S8x1x512 : S8x512.ShapeCasts S8x1x512
  concatenates_S8x1x512_S8x1x512_S8x2x512_d1 : Shape.Concatenates [S8x1x512, S8x1x512] S8x2x512 1
  shapeCasts_S8x2x512_S16x512 : S8x2x512.ShapeCasts S16x512
  slices_S1023x512_o15_0_S16x512 : S1023x512.Slices ![15, 0] S16x512
  shapeCasts_S16x512_S16x1x512 : S16x512.ShapeCasts S16x1x512
  concatenates_S16x1x512_S16x1x512_S16x2x512_d1 : Shape.Concatenates [S16x1x512, S16x1x512] S16x2x512 1
  shapeCasts_S16x2x512_S32x512 : S16x2x512.ShapeCasts S32x512
  slices_S1023x512_o31_0_S32x512 : S1023x512.Slices ![31, 0] S32x512
  shapeCasts_S32x512_S32x1x512 : S32x512.ShapeCasts S32x1x512
  concatenates_S32x1x512_S32x1x512_S32x2x512_d1 : Shape.Concatenates [S32x1x512, S32x1x512] S32x2x512 1
  shapeCasts_S32x2x512_S64x512 : S32x2x512.ShapeCasts S64x512
  slices_S1023x512_o63_0_S64x512 : S1023x512.Slices ![63, 0] S64x512
  shapeCasts_S64x512_S64x1x512 : S64x512.ShapeCasts S64x1x512
  concatenates_S64x1x512_S64x1x512_S64x2x512_d1 : Shape.Concatenates [S64x1x512, S64x1x512] S64x2x512 1
  shapeCasts_S64x2x512_S128x512 : S64x2x512.ShapeCasts S128x512
  slices_S1023x512_o127_0_S128x512 : S1023x512.Slices ![127, 0] S128x512
  shapeCasts_S128x512_S128x1x512 : S128x512.ShapeCasts S128x1x512
  concatenates_S128x1x512_S128x1x512_S128x2x512_d1 : Shape.Concatenates [S128x1x512, S128x1x512] S128x2x512 1
  shapeCasts_S128x2x512_S256x512 : S128x2x512.ShapeCasts S256x512
  slices_S1023x512_o255_0_S256x512 : S1023x512.Slices ![255, 0] S256x512
  shapeCasts_S256x512_S256x1x512 : S256x512.ShapeCasts S256x1x512
  concatenates_S256x1x512_S256x1x512_S256x2x512_d1 : Shape.Concatenates [S256x1x512, S256x1x512] S256x2x512 1
  shapeCasts_S256x2x512_S512x512 : S256x2x512.ShapeCasts S512x512
  slices_S1023x512_o511_0_S512x512 : S1023x512.Slices ![511, 0] S512x512
  shapeCasts_S512x512_S512x1x512 : S512x512.ShapeCasts S512x1x512
  concatenates_S512x1x512_S512x1x512_S512x2x512_d1 : Shape.Concatenates [S512x1x512, S512x1x512] S512x2x512 1
  shapeCasts_S512x2x512_S1024x512 : S512x2x512.ShapeCasts S1024x512
  transposes_S1024x512_p1_0_S512x1024 : S1024x512.Transposes [1, 0] S512x1024
  inb_S512x1024_S512x1024_0_0 : ∀ a, (![0, 0] : Fin 2 → Nat) a + S512x1024.size a ≤ S512x1024.size a
  h_S512x1024 : 0 < S512x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1023.size a ≤ S65536x1023.size a
  hwx0_0 : ∀ i : grid0.Coords, EltTy.bits .f32 = 32 ∨ (Rect.block (s := S65536x1023) S512x1023.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S65536x1024.size a
  hwx0_1 : ∀ i : grid0.Coords, EltTy.bits .f32 = 32 ∨ (Rect.block (s := S65536x1024) S512x1024.size (cc0_transform_1 i) (hinb0_1 i)).WholeWords (EltTy.packing .f32)

variable [Facts₀]

abbrev win0_0 : Pipeline.Window sig grid0 :=
  Pipeline.Window.ofSpec (Memref.whole main_arg0) S512x1023.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x1023 : Shape := ⟨2, ![65536, 1023]⟩
abbrev S_ : Shape := ⟨0, ![]⟩
abbrev S65536x1 : Shape := ⟨2, ![65536, 1]⟩
abbrev S65536x1x1 : Shape := ⟨3, ![65536, 1, 1]⟩
abbrev S65536x1x2 : Shape := ⟨3, ![65536, 1, 2]⟩
abbrev S65536x2 : Shape := ⟨2, ![65536, 2]⟩
abbrev S65536x2x1 : Shape := ⟨3, ![65536, 2, 1]⟩
abbrev S65536x2x2 : Shape := ⟨3, ![65536, 2, 2]⟩
abbrev S65536x4 : Shape := ⟨2, ![65536, 4]⟩
abbrev S65536x4x1 : Shape := ⟨3, ![65536, 4, 1]⟩
abbrev S65536x4x2 : Shape := ⟨3, ![65536, 4, 2]⟩
abbrev S65536x8 : Shape := ⟨2, ![65536, 8]⟩
abbrev S65536x8x1 : Shape := ⟨3, ![65536, 8, 1]⟩
abbrev S65536x8x2 : Shape := ⟨3, ![65536, 8, 2]⟩
abbrev S65536x16 : Shape := ⟨2, ![65536, 16]⟩
abbrev S65536x16x1 : Shape := ⟨3, ![65536, 16, 1]⟩
abbrev S65536x16x2 : Shape := ⟨3, ![65536, 16, 2]⟩
abbrev S65536x32 : Shape := ⟨2, ![65536, 32]⟩
abbrev S65536x32x1 : Shape := ⟨3, ![65536, 32, 1]⟩
abbrev S65536x32x2 : Shape := ⟨3, ![65536, 32, 2]⟩
abbrev S65536x64 : Shape := ⟨2, ![65536, 64]⟩
abbrev S65536x64x1 : Shape := ⟨3, ![65536, 64, 1]⟩
abbrev S65536x64x2 : Shape := ⟨3, ![65536, 64, 2]⟩
abbrev S65536x128 : Shape := ⟨2, ![65536, 128]⟩
abbrev S65536x128x1 : Shape := ⟨3, ![65536, 128, 1]⟩
abbrev S65536x128x2 : Shape := ⟨3, ![65536, 128, 2]⟩
abbrev S65536x256 : Shape := ⟨2, ![65536, 256]⟩
abbrev S65536x256x1 : Shape := ⟨3, ![65536, 256, 1]⟩
abbrev S65536x256x2 : Shape := ⟨3, ![65536, 256, 2]⟩
abbrev S65536x512 : Shape := ⟨2, ![65536, 512]⟩
abbrev S65536x512x1 : Shape := ⟨3, ![65536, 512, 1]⟩
abbrev S65536x512x2 : Shape := ⟨3, ![65536, 512, 2]⟩
abbrev S65536x1024 : Shape := ⟨2, ![65536, 1024]⟩

abbrev nBuf : Space → Nat
  | .hbm => 103
  | .vmem => 0
  | .smem => 0
  | _ => 0

abbrev bufTy : (tb : Table) → Fin (tcTables nBuf tb) → BufTy
  | .hbm, ⟨0, _⟩ => ⟨S65536x1023, .f32⟩
  | .hbm, ⟨1, _⟩ => ⟨S_, .f32⟩
  | .hbm, ⟨2, _⟩ => ⟨S65536x1, .f32⟩
  | .hbm, ⟨3, _⟩ => ⟨S65536x1, .f32⟩
  | .hbm, ⟨4, _⟩ => ⟨S65536x1, .f32⟩
  | .hbm, ⟨5, _⟩ => ⟨S_, .f32⟩
  | .hbm, ⟨6, _⟩ => ⟨S65536x1, .f32⟩
  | .hbm, ⟨7, _⟩ => ⟨S65536x1, .f32⟩
  | .hbm, ⟨8, _⟩ => ⟨S65536x1, .f32⟩
  | .hbm, ⟨9, _⟩ => ⟨S65536x1x1, .f32⟩
  | .hbm, ⟨10, _⟩ => ⟨S65536x1x1, .f32⟩
  | .hbm, ⟨11, _⟩ => ⟨S65536x1x2, .f32⟩
  | .hbm, ⟨12, _⟩ => ⟨S65536x2, .f32⟩
  | .hbm, ⟨13, _⟩ => ⟨S65536x2, .f32⟩
  | .hbm, ⟨14, _⟩ => ⟨S65536x2, .f32⟩
  | .hbm, ⟨15, _⟩ => ⟨S_, .f32⟩
  | .hbm, ⟨16, _⟩ => ⟨S65536x2, .f32⟩
  | .hbm, ⟨17, _⟩ => ⟨S65536x2, .f32⟩
  | .hbm, ⟨18, _⟩ => ⟨S65536x2, .f32⟩
  | .hbm, ⟨19, _⟩ => ⟨S65536x2x1, .f32⟩
  | .hbm, ⟨20, _⟩ => ⟨S65536x2x1, .f32⟩
  | .hbm, ⟨21, _⟩ => ⟨S65536x2x2, .f32⟩
  | .hbm, ⟨22, _⟩ => ⟨S65536x4, .f32⟩
  | .hbm, ⟨23, _⟩ => ⟨S65536x4, .f32⟩
  | .hbm, ⟨24, _⟩ => ⟨S65536x4, .f32⟩
  | .hbm, ⟨25, _⟩ => ⟨S_, .f32⟩
  | .hbm, ⟨26, _⟩ => ⟨S65536x4, .f32⟩
  | .hbm, ⟨27, _⟩ => ⟨S65536x4, .f32⟩
  | .hbm, ⟨28, _⟩ => ⟨S65536x4, .f32⟩
  | .hbm, ⟨29, _⟩ => ⟨S65536x4x1, .f32⟩
  | .hbm, ⟨30, _⟩ => ⟨S65536x4x1, .f32⟩
  | .hbm, ⟨31, _⟩ => ⟨S65536x4x2, .f32⟩
  | .hbm, ⟨32, _⟩ => ⟨S65536x8, .f32⟩
  | .hbm, ⟨33, _⟩ => ⟨S65536x8, .f32⟩
  | .hbm, ⟨34, _⟩ => ⟨S65536x8, .f32⟩
  | .hbm, ⟨35, _⟩ => ⟨S_, .f32⟩
  | .hbm, ⟨36, _⟩ => ⟨S65536x8, .f32⟩
  | .hbm, ⟨37, _⟩ => ⟨S65536x8, .f32⟩
  | .hbm, ⟨38, _⟩ => ⟨S65536x8, .f32⟩
  | .hbm, ⟨39, _⟩ => ⟨S65536x8x1, .f32⟩
  | .hbm, ⟨40, _⟩ => ⟨S65536x8x1, .f32⟩
  | .hbm, ⟨41, _⟩ => ⟨S65536x8x2, .f32⟩
  | .hbm, ⟨42, _⟩ => ⟨S65536x16, .f32⟩
  | .hbm, ⟨43, _⟩ => ⟨S65536x16, .f32⟩
  | .hbm, ⟨44, _⟩ => ⟨S65536x16, .f32⟩
  | .hbm, ⟨45, _⟩ => ⟨S_, .f32⟩
  | .hbm, ⟨46, _⟩ => ⟨S65536x16, .f32⟩
  | .hbm, ⟨47, _⟩ => ⟨S65536x16, .f32⟩
  | .hbm, ⟨48, _⟩ => ⟨S65536x16, .f32⟩
  | .hbm, ⟨49, _⟩ => ⟨S65536x16x1, .f32⟩
  | .hbm, ⟨50, _⟩ => ⟨S65536x16x1, .f32⟩
  | .hbm, ⟨51, _⟩ => ⟨S65536x16x2, .f32⟩
  | .hbm, ⟨52, _⟩ => ⟨S65536x32, .f32⟩
  | .hbm, ⟨53, _⟩ => ⟨S65536x32, .f32⟩
  | .hbm, ⟨54, _⟩ => ⟨S65536x32, .f32⟩
  | .hbm, ⟨55, _⟩ => ⟨S_, .f32⟩
  | .hbm, ⟨56, _⟩ => ⟨S65536x32, .f32⟩
  | .hbm, ⟨57, _⟩ => ⟨S65536x32, .f32⟩
  | .hbm, ⟨58, _⟩ => ⟨S65536x32, .f32⟩
  | .hbm, ⟨59, _⟩ => ⟨S65536x32x1, .f32⟩
  | .hbm, ⟨60, _⟩ => ⟨S65536x32x1, .f32⟩
  | .hbm, ⟨61, _⟩ => ⟨S65536x32x2, .f32⟩
  | .hbm, ⟨62, _⟩ => ⟨S65536x64, .f32⟩
  | .hbm, ⟨63, _⟩ => ⟨S65536x64, .f32⟩
  | .hbm, ⟨64, _⟩ => ⟨S65536x64, .f32⟩
  | .hbm, ⟨65, _⟩ => ⟨S_, .f32⟩
  | .hbm, ⟨66, _⟩ => ⟨S65536x64, .f32⟩
  | .hbm, ⟨67, _⟩ => ⟨S65536x64, .f32⟩
  | .hbm, ⟨68, _⟩ => ⟨S65536x64, .f32⟩
  | .hbm, ⟨69, _⟩ => ⟨S65536x64x1, .f32⟩
  | .hbm, ⟨70, _⟩ => ⟨S65536x64x1, .f32⟩
  | .hbm, ⟨71, _⟩ => ⟨S65536x64x2, .f32⟩
  | .hbm, ⟨72, _⟩ => ⟨S65536x128, .f32⟩
  | .hbm, ⟨73, _⟩ => ⟨S65536x128, .f32⟩
  | .hbm, ⟨74, _⟩ => ⟨S65536x128, .f32⟩
  | .hbm, ⟨75, _⟩ => ⟨S_, .f32⟩
  | .hbm, ⟨76, _⟩ => ⟨S65536x128, .f32⟩
  | .hbm, ⟨77, _⟩ => ⟨S65536x128, .f32⟩
  | .hbm, ⟨78, _⟩ => ⟨S65536x128, .f32⟩
  | .hbm, ⟨79, _⟩ => ⟨S65536x128x1, .f32⟩
  | .hbm, ⟨80, _⟩ => ⟨S65536x128x1, .f32⟩
  | .hbm, ⟨81, _⟩ => ⟨S65536x128x2, .f32⟩
  | .hbm, ⟨82, _⟩ => ⟨S65536x256, .f32⟩
  | .hbm, ⟨83, _⟩ => ⟨S65536x256, .f32⟩
  | .hbm, ⟨84, _⟩ => ⟨S65536x256, .f32⟩
  | .hbm, ⟨85, _⟩ => ⟨S_, .f32⟩
  | .hbm, ⟨86, _⟩ => ⟨S65536x256, .f32⟩
  | .hbm, ⟨87, _⟩ => ⟨S65536x256, .f32⟩
  | .hbm, ⟨88, _⟩ => ⟨S65536x256, .f32⟩
  | .hbm, ⟨89, _⟩ => ⟨S65536x256x1, .f32⟩
  | .hbm, ⟨90, _⟩ => ⟨S65536x256x1, .f32⟩
  | .hbm, ⟨91, _⟩ => ⟨S65536x256x2, .f32⟩
  | .hbm, ⟨92, _⟩ => ⟨S65536x512, .f32⟩
  | .hbm, ⟨93, _⟩ => ⟨S65536x512, .f32⟩
  | .hbm, ⟨94, _⟩ => ⟨S65536x512, .f32⟩
  | .hbm, ⟨95, _⟩ => ⟨S_, .f32⟩
  | .hbm, ⟨96, _⟩ => ⟨S65536x512, .f32⟩
  | .hbm, ⟨97, _⟩ => ⟨S65536x512, .f32⟩
  | .hbm, ⟨98, _⟩ => ⟨S65536x512, .f32⟩
  | .hbm, ⟨99, _⟩ => ⟨S65536x512x1, .f32⟩
  | .hbm, ⟨100, _⟩ => ⟨S65536x512x1, .f32⟩
  | .hbm, ⟨101, _⟩ => ⟨S65536x512x2, .f32⟩
  | .hbm, ⟨102, _⟩ => ⟨S65536x1024, .f32⟩
  | _, _ => ⟨S65536x1023, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_3 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_4 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_5 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_6 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_cst_7 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_cst_8 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_9 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩

abbrev nD : Nat := 1
abbrev τ : Topo := Topo.v7x

variable {F : FTy → Type} [FloatOps F]

class Facts₀ : Prop where
  bcast_S_S65536x1 : S_.BroadcastsInDim S65536x1 (![] : Fin 0 → Fin S65536x1.rank)
  slices_S65536x1023_S65536x1_0_0 : S65536x1023.Slices ![0, 0] S65536x1
  bcast_S65536x1_S65536x1x1_0_1 : S65536x1.BroadcastsInDim S65536x1x1 (![0, 1] : Fin 2 → Fin S65536x1x1.rank)
  concatenates_S65536x1x1_S65536x1x1_S65536x1x2_d2 : Shape.Concatenates [S65536x1x1, S65536x1x1] S65536x1x2 2
  shapeCasts_S65536x1x2_S65536x2 : S65536x1x2.ShapeCasts S65536x2
  slices_S65536x1023_S65536x2_0_1 : S65536x1023.Slices ![0, 1] S65536x2
  bcast_S_S65536x2 : S_.BroadcastsInDim S65536x2 (![] : Fin 0 → Fin S65536x2.rank)
  bcast_S65536x2_S65536x2x1_0_1 : S65536x2.BroadcastsInDim S65536x2x1 (![0, 1] : Fin 2 → Fin S65536x2x1.rank)
  concatenates_S65536x2x1_S65536x2x1_S65536x2x2_d2 : Shape.Concatenates [S65536x2x1, S65536x2x1] S65536x2x2 2
  shapeCasts_S65536x2x2_S65536x4 : S65536x2x2.ShapeCasts S65536x4
  slices_S65536x1023_S65536x4_0_3 : S65536x1023.Slices ![0, 3] S65536x4
  bcast_S_S65536x4 : S_.BroadcastsInDim S65536x4 (![] : Fin 0 → Fin S65536x4.rank)
  bcast_S65536x4_S65536x4x1_0_1 : S65536x4.BroadcastsInDim S65536x4x1 (![0, 1] : Fin 2 → Fin S65536x4x1.rank)
  concatenates_S65536x4x1_S65536x4x1_S65536x4x2_d2 : Shape.Concatenates [S65536x4x1, S65536x4x1] S65536x4x2 2
  shapeCasts_S65536x4x2_S65536x8 : S65536x4x2.ShapeCasts S65536x8
  slices_S65536x1023_S65536x8_0_7 : S65536x1023.Slices ![0, 7] S65536x8
  bcast_S_S65536x8 : S_.BroadcastsInDim S65536x8 (![] : Fin 0 → Fin S65536x8.rank)
  bcast_S65536x8_S65536x8x1_0_1 : S65536x8.BroadcastsInDim S65536x8x1 (![0, 1] : Fin 2 → Fin S65536x8x1.rank)
  concatenates_S65536x8x1_S65536x8x1_S65536x8x2_d2 : Shape.Concatenates [S65536x8x1, S65536x8x1] S65536x8x2 2
  shapeCasts_S65536x8x2_S65536x16 : S65536x8x2.ShapeCasts S65536x16
  slices_S65536x1023_S65536x16_0_15 : S65536x1023.Slices ![0, 15] S65536x16
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  concatenates_S65536x16x1_S65536x16x1_S65536x16x2_d2 : Shape.Concatenates [S65536x16x1, S65536x16x1] S65536x16x2 2
  shapeCasts_S65536x16x2_S65536x32 : S65536x16x2.ShapeCasts S65536x32
  slices_S65536x1023_S65536x32_0_31 : S65536x1023.Slices ![0, 31] S65536x32
  bcast_S_S65536x32 : S_.BroadcastsInDim S65536x32 (![] : Fin 0 → Fin S65536x32.rank)
  bcast_S65536x32_S65536x32x1_0_1 : S65536x32.BroadcastsInDim S65536x32x1 (![0, 1] : Fin 2 → Fin S65536x32x1.rank)
  concatenates_S65536x32x1_S65536x32x1_S65536x32x2_d2 : Shape.Concatenates [S65536x32x1, S65536x32x1] S65536x32x2 2
  shapeCasts_S65536x32x2_S65536x64 : S65536x32x2.ShapeCasts S65536x64
  slices_S65536x1023_S65536x64_0_63 : S65536x1023.Slices ![0, 63] S65536x64
  bcast_S_S65536x64 : S_.BroadcastsInDim S65536x64 (![] : Fin 0 → Fin S65536x64.rank)
  bcast_S65536x64_S65536x64x1_0_1 : S65536x64.BroadcastsInDim S65536x64x1 (![0, 1] : Fin 2 → Fin S65536x64x1.rank)
  concatenates_S65536x64x1_S65536x64x1_S65536x64x2_d2 : Shape.Concatenates [S65536x64x1, S65536x64x1] S65536x64x2 2
  shapeCasts_S65536x64x2_S65536x128 : S65536x64x2.ShapeCasts S65536x128
  slices_S65536x1023_S65536x128_0_127 : S65536x1023.Slices ![0, 127] S65536x128
  bcast_S_S65536x128 : S_.BroadcastsInDim S65536x128 (![] : Fin 0 → Fin S65536x128.rank)
  bcast_S65536x128_S65536x128x1_0_1 : S65536x128.BroadcastsInDim S65536x128x1 (![0, 1] : Fin 2 → Fin S65536x128x1.rank)
  concatenates_S65536x128x1_S65536x128x1_S65536x128x2_d2 : Shape.Concatenates [S65536x128x1, S65536x128x1] S65536x128x2 2
  shapeCasts_S65536x128x2_S65536x256 : S65536x128x2.ShapeCasts S65536x256
  slices_S65536x1023_S65536x256_0_255 : S65536x1023.Slices ![0, 255] S65536x256
  bcast_S_S65536x256 : S_.BroadcastsInDim S65536x256 (![] : Fin 0 → Fin S65536x256.rank)
  bcast_S65536x256_S65536x256x1_0_1 : S65536x256.BroadcastsInDim S65536x256x1 (![0, 1] : Fin 2 → Fin S65536x256x1.rank)
  concatenates_S65536x256x1_S65536x256x1_S65536x256x2_d2 : Shape.Concatenates [S65536x256x1, S65536x256x1] S65536x256x2 2
  shapeCasts_S65536x256x2_S65536x512 : S65536x256x2.ShapeCasts S65536x512
  slices_S65536x1023_S65536x512_0_511 : S65536x1023.Slices ![0, 511] S65536x512
  bcast_S_S65536x512 : S_.BroadcastsInDim S65536x512 (![] : Fin 0 → Fin S65536x512.rank)
  bcast_S65536x512_S65536x512x1_0_1 : S65536x512.BroadcastsInDim S65536x512x1 (![0, 1] : Fin 2 → Fin S65536x512x1.rank)
  concatenates_S65536x512x1_S65536x512x1_S65536x512x2_d2 : Shape.Concatenates [S65536x512x1, S65536x512x1] S65536x512x2 2
  shapeCasts_S65536x512x2_S65536x1024 : S65536x512x2.ShapeCasts S65536x1024

variable [Facts₀]

class Facts : Prop extends Facts₀ where

variable [Facts]
-- ==== Proof.LibInterleave.lean ====
/-
  Two arrays of one shape interleaved along an axis, read at an index.

  Give each of two arrays `p`, `q` a new unit axis, lay them side by side along it, and merge that axis (extent 2)
  with the axis in front of it. Along the merged axis the result alternates: position `n` holds `p` at `n / 2`
  when `n` is even and `q` at `n / 2` when `n` is odd. Two spellings of this are read here, for any extents and
  any element type:

  * `lead_apply`: the alternating axis LEADS. `[L, B]` is cast to `[L, 1, B]`, two of them are concatenated along
    axis 1 to `[L, 2, B]`, and the two leading axes are merged by a cast to `[2 L, B]`.
  * `trail_apply`: the alternating axis TRAILS. `[N, L]` is broadcast (dimensions `[0, 1]`) to `[N, L, 1]`, two of
    them are concatenated along axis 2 to `[N, L, 2]`, and the two trailing axes are merged by a cast to `[N, 2 L]`.

  Both are the row-major position equation of the merging cast (`2 k + r` is `n` when `k = n / 2`, `r = n % 2`),
  then the concatenation read in its first or second piece, then the unit axis dropped again.
-/
import Idealize.ShloMosaic.Lib.Pipeline.Value
import Idealize.ShloMosaic.Lib.ValueIdx

noncomputable section

namespace Cert.Lib.Interleave

open Idealize.ShloMosaic Idealize.ShloMosaic.ValueIdx

variable {α : Type}

/-- The alternating axis in front: row `n` of the `[2 L, B]` result is row `n / 2` of `p` for even `n`, of `q` for odd
    `n`; the trailing coordinate is carried along. The caller names `k = n / 2` as an index of the operands. -/
theorem lead_apply {L L2 B : ℕ}
    (h1 : (⟨2, ![L, B]⟩ : Shape).ShapeCasts ⟨3, ![L, 1, B]⟩)
    (hc : Shape.Concatenates [⟨3, ![L, 1, B]⟩, ⟨3, ![L, 1, B]⟩] ⟨3, ![L, 2, B]⟩ 1)
    (h2 : (⟨3, ![L, 2, B]⟩ : Shape).ShapeCasts ⟨2, ![L2, B]⟩)
    (p q : (⟨2, ![L, B]⟩ : Shape).Idx → α) (n : Fin L2) (b : Fin B) (k : Fin L) (hk : k.val = n.val / 2) :
    shapeCast ⟨2, ![L2, B]⟩ (concatenate ⟨3, ![L, 2, B]⟩ 1
        [⟨⟨3, ![L, 1, B]⟩, shapeCast ⟨3, ![L, 1, B]⟩ p h1⟩, ⟨⟨3, ![L, 1, B]⟩, shapeCast ⟨3, ![L, 1, B]⟩ q h1⟩] hc) h2 (ix2 n b)
      = if n.val % 2 = 0 then p (ix2 k b) else q (ix2 k b) := by
  have hm : n.val % 2 < 2 := Nat.mod_lt _ (by decide)
  have hsum : k.val * 2 + n.val % 2 = n.val := by omega
  -- the unit axis dropped: `[L, 1, B]` at `(k, 0, b)` is `[L, B]` at `(k, b)`
  have drop : ∀ v : (⟨2, ![L, B]⟩ : Shape).Idx → α,
      shapeCast ⟨3, ![L, 1, B]⟩ v h1 (ix3 k (0 : Fin 1) b) = v (ix2 k b) := fun v => by
    refine shapeCast_apply v h1 _ (ix2 k b) ?_
    rw [Shape.rowMajor_val_three, Shape.rowMajor_val_two]
    show k.val * B + b.val = (k.val * 1 + 0) * B + b.val
    rw [Nat.mul_one, Nat.add_zero]
  refine (shapeCast_apply _ h2 (ix2 n b) (ix3 k ⟨n.val % 2, hm⟩ b) ?_).trans ?_
  · rw [Shape.rowMajor_val_three, Shape.rowMajor_val_two]
    show (k.val * 2 + n.val % 2) * B + b.val = n.val * B + b.val
    rw [hsum]
  · by_cases h0 : n.val % 2 = 0
    · rw [if_pos h0]
      refine (concatenate_pair_apply_left (t := ⟨3, ![L, 2, B]⟩) (s₁ := ⟨3, ![L, 1, B]⟩) (s₂ := ⟨3, ![L, 1, B]⟩) (1 : Fin 3) _ _ hc _ rfl (ix3 k (0 : Fin 1) b) ?_).trans (drop p)
      intro a
      match a with
      | ⟨0, _⟩ => rfl
      | ⟨1, _⟩ => exact h0.symm
      | ⟨2, _⟩ => rfl
    · rw [if_neg h0]
      refine (concatenate_pair_apply_right (t := ⟨3, ![L, 2, B]⟩) (s₁ := ⟨3, ![L, 1, B]⟩) (s₂ := ⟨3, ![L, 1, B]⟩) (1 : Fin 3) _ _ hc _ rfl rfl (ix3 k (0 : Fin 1) b) ?_ ?_).trans (drop q)
      · intro a ha
        match a, ha with
        | ⟨0, _⟩, _ => rfl
        | ⟨1, _⟩, ha => exact absurd (Fin.ext rfl) ha
        | ⟨2, _⟩, _ => rfl
      · show 0 + 1 = n.val % 2
        omega

/-- The alternating axis behind: column `n` of the `[N, 2 L]` result is column `n / 2` of `p` for even `n`, of `q` for
    odd `n`; the leading coordinate is carried along. The caller names `k = n / 2` as an index of the operands. -/
theorem trail_apply {N L L2 : ℕ} (hL2 : L2 = 2 * L)
    (hb : (⟨2, ![N, L]⟩ : Shape).BroadcastsInDim ⟨3, ![N, L, 1]⟩ ![0, 1])
    (hc : Shape.Concatenates [⟨3, ![N, L, 1]⟩, ⟨3, ![N, L, 1]⟩] ⟨3, ![N, L, 2]⟩ 2)
    (h2 : (⟨3, ![N, L, 2]⟩ : Shape).ShapeCasts ⟨2, ![N, L2]⟩)
    (p q : (⟨2, ![N, L]⟩ : Shape).Idx → α) (r : Fin N) (n : Fin L2) (k : Fin L) (hk : k.val = n.val / 2) :
    shapeCast ⟨2, ![N, L2]⟩ (concatenate ⟨3, ![N, L, 2]⟩ 2
        [⟨⟨3, ![N, L, 1]⟩, broadcastInDim ⟨3, ![N, L, 1]⟩ ![0, 1] hb p⟩, ⟨⟨3, ![N, L, 1]⟩, broadcastInDim ⟨3, ![N, L, 1]⟩ ![0, 1] hb q⟩] hc) h2 (ix2 r n)
      = if n.val % 2 = 0 then p (ix2 r k) else q (ix2 r k) := by
  have hm : n.val % 2 < 2 := Nat.mod_lt _ (by decide)
  have hr := r.isLt
  have hkl := k.isLt
  -- the unit axis dropped: `[N, L, 1]` at `(r, k, 0)` is `[N, L]` at `(r, k)`
  have drop : ∀ v : (⟨2, ![N, L]⟩ : Shape).Idx → α,
      broadcastInDim ⟨3, ![N, L, 1]⟩ ![0, 1] hb v (ix3 r k (0 : Fin 1)) = v (ix2 r k) := fun v => by
    refine broadcastInDim_apply _ hb v _ (ix2 r k) ?_
    intro a
    match a with
    | ⟨0, _⟩ =>
      show r.val = if N = 1 then 0 else r.val
      split <;> omega
    | ⟨1, _⟩ =>
      show k.val = if L = 1 then 0 else k.val
      split <;> omega
  refine (shapeCast_apply _ h2 (ix2 r n) (ix3 r k ⟨n.val % 2, hm⟩) ?_).trans ?_
  · rw [Shape.rowMajor_val_three, Shape.rowMajor_val_two]
    show (r.val * L + k.val) * 2 + n.val % 2 = r.val * L2 + n.val
    subst hL2
    have e : r.val * (2 * L) = r.val * L * 2 := by rw [Nat.mul_comm 2 L, Nat.mul_assoc]
    rw [e]
    omega
  · by_cases h0 : n.val % 2 = 0
    · rw [if_pos h0]
      refine (concatenate_pair_apply_left (t := ⟨3, ![N, L, 2]⟩) (s₁ := ⟨3, ![N, L, 1]⟩) (s₂ := ⟨3, ![N, L, 1]⟩) (2 : Fin 3) _ _ hc _ rfl (ix3 r k (0 : Fin 1)) ?_).trans (drop p)
      intro a
      match a with
      | ⟨0, _⟩ => rfl
      | ⟨1, _⟩ => rfl
      | ⟨2, _⟩ => exact h0.symm
    · rw [if_neg h0]
      refine (concatenate_pair_apply_right (t := ⟨3, ![N, L, 2]⟩) (s₁ := ⟨3, ![N, L, 1]⟩) (s₂ := ⟨3, ![N, L, 1]⟩) (2 : Fin 3) _ _ hc _ rfl rfl (ix3 r k (0 : Fin 1)) ?_ ?_).trans (drop q)
      · intro a ha
        match a, ha with
        | ⟨0, _⟩, _ => rfl
        | ⟨1, _⟩, _ => rfl
        | ⟨2, _⟩, ha => exact absurd (Fin.ext rfl) ha
      · show 0 + 1 = n.val % 2
        omega

end Cert.Lib.Interleave

end
-- ==== Proof.SplitSpec.lean ====
/-
  A complete binary tree of split fractions, read level by level.

  A row of `2 ^ D - 1` fractions is laid out depth by depth: the node `k` of depth `d` (`k < 2 ^ d`) has its
  fraction at position `2 ^ d - 1 + k`. The root carries the mass `c`. A node passes to its even child its mass
  times its fraction and to its odd child its mass times `c - fraction`; child `n` of depth `d + 1` hangs under
  node `n / 2`. `leaf c row d n` is the mass that reaches node `n` of depth `d`; it is the product, along the path
  from the root, of the fractions (or their complements) met, taken in that order, so nothing here needs more of the
  extended reals than their multiplication and subtraction as they stand.

  Two programs compute one level from the one before by interleaving the two children's arrays; they differ in where
  the node axis sits. `level_lead`: nodes on the leading axis, the row's number on the trailing one. `level_trail`:
  the row's number on the leading axis, nodes on the trailing one. Each says: if the level-`d` array holds
  `leaf … d` and the fraction array holds the depth-`d` fractions, the interleaved array holds `leaf … (d + 1)`.
-/
import proofs.«100825_j39118562132378_1_alg».proof.Proof.LibInterleave
import Idealize.ShloMosaic.PureOps.Ideal
import Idealize.ShloMosaic.Lib.ValueIdx

noncomputable section

namespace Cert.SplitTree

open Idealize.ShloMosaic Idealize.ShloMosaic.ValueIdx

/-- The root's mass in both programs: the number the word `0x3F800000` denotes (it is never evaluated: both
    programs carry the same word). -/
abbrev one : Ideal .f32 := Ideal.ofBits .f32 0x3F800000#32

/-- Row `R` of a matrix as a sequence of its entries (zero past the row's end, which no level reads). -/
def rowOf {N M : ℕ} (X : (⟨2, ![N, M]⟩ : Shape).Idx → EReal) (R : Fin N) (k : ℕ) : EReal :=
  if h : k < M then X (ix2 R ⟨k, h⟩) else 0

theorem rowOf_lt {N M : ℕ} (X : (⟨2, ![N, M]⟩ : Shape).Idx → EReal) (R : Fin N) (k : ℕ) (h : k < M) :
    rowOf X R k = X (ix2 R ⟨k, h⟩) := dif_pos h

/-- The mass reaching node `n` of depth `d`. -/
def leaf (c : EReal) (row : ℕ → EReal) : ℕ → ℕ → EReal
  | 0, _ => c
  | d + 1, n => if n % 2 = 0 then leaf c row d (n / 2) * row (2 ^ d - 1 + n / 2)
      else leaf c row d (n / 2) * (c - row (2 ^ d - 1 + n / 2))

theorem leaf_zero (c : EReal) (row : ℕ → EReal) (n : ℕ) : leaf c row 0 n = c := rfl

theorem leaf_succ (c : EReal) (row : ℕ → EReal) (d n : ℕ) :
    leaf c row (d + 1) n = if n % 2 = 0 then leaf c row d (n / 2) * row (2 ^ d - 1 + n / 2)
      else leaf c row d (n / 2) * (c - row (2 ^ d - 1 + n / 2)) := rfl

/-- The whole result: row `R` of the `[N, K]` array holds the masses reaching the nodes of depth `D` from row `R` of the
    fractions `X`. -/
def leaves {N M K : ℕ} (D : ℕ) (c : EReal) (X : (⟨2, ![N, M]⟩ : Shape).Idx → EReal) : (⟨2, ![N, K]⟩ : Shape).Idx → EReal :=
  fun i => leaf c (rowOf X ⟨(i 0).val, idx2_lt0 i⟩) D (i 1).val

theorem leaves_apply {N M K : ℕ} (D : ℕ) (c : EReal) (X : (⟨2, ![N, M]⟩ : Shape).Idx → EReal) (R : Fin N) (n : Fin K) :
    leaves (K := K) D c X (ix2 R n) = leaf c (rowOf X R) D n.val := rfl

/-- One level, nodes on the LEADING axis: `cur` holds depth `d` (node `n`, row `b` at `(n, b)`), `a` the depth's
    fractions; the two children `cur * a` and `cur * (c - a)` interleaved along the node axis hold depth `d + 1`. -/
theorem level_lead {d L L2 B : ℕ}
    (h1 : (⟨2, ![L, B]⟩ : Shape).ShapeCasts ⟨3, ![L, 1, B]⟩)
    (hc : Shape.Concatenates [⟨3, ![L, 1, B]⟩, ⟨3, ![L, 1, B]⟩] ⟨3, ![L, 2, B]⟩ 1)
    (h2 : (⟨3, ![L, 2, B]⟩ : Shape).ShapeCasts ⟨2, ![L2, B]⟩) (hL2 : L2 = 2 * L)
    (o : ℕ) (ho : o = 2 ^ d - 1)
    (c : Ideal .f32) (row : Fin B → ℕ → EReal) (cur a : FVec Ideal ⟨2, ![L, B]⟩ .f32)
    (hcur : ∀ (n : Fin L) (b : Fin B), cur (ix2 n b) = leaf c (row b) d n.val)
    (ha : ∀ (n : Fin L) (b : Fin B), a (ix2 n b) = row b (o + n.val))
    (n : Fin L2) (b : Fin B) :
    shapeCast ⟨2, ![L2, B]⟩ (concatenate ⟨3, ![L, 2, B]⟩ 1
        [⟨⟨3, ![L, 1, B]⟩, shapeCast ⟨3, ![L, 1, B]⟩ (mulf cur a) h1⟩,
         ⟨⟨3, ![L, 1, B]⟩, shapeCast ⟨3, ![L, 1, B]⟩ (mulf cur (subf (broadcast ⟨2, ![L, B]⟩ c) a)) h1⟩] hc) h2 (ix2 n b)
      = leaf c (row b) (d + 1) n.val := by
  have hk : n.val / 2 < L := by have := n.isLt; omega
  refine (Cert.Lib.Interleave.lead_apply h1 hc h2 _ _ n b ⟨n.val / 2, hk⟩ rfl).trans ?_
  show (if n.val % 2 = 0 then cur (ix2 ⟨n.val / 2, hk⟩ b) * a (ix2 ⟨n.val / 2, hk⟩ b)
    else cur (ix2 ⟨n.val / 2, hk⟩ b) * (c - a (ix2 ⟨n.val / 2, hk⟩ b))) = _
  rw [hcur, ha, leaf_succ, ho]

/-- One level, nodes on the TRAILING axis: `cur` holds depth `d` (row `r`, node `n` at `(r, n)`), `a` the depth's
    fractions, the constant `c` a broadcast scalar; the two children interleaved along the node axis hold depth `d + 1`. -/
theorem level_trail {d N L L2 : ℕ}
    (hb : (⟨2, ![N, L]⟩ : Shape).BroadcastsInDim ⟨3, ![N, L, 1]⟩ ![0, 1])
    (hc : Shape.Concatenates [⟨3, ![N, L, 1]⟩, ⟨3, ![N, L, 1]⟩] ⟨3, ![N, L, 2]⟩ 2)
    (h2 : (⟨3, ![N, L, 2]⟩ : Shape).ShapeCasts ⟨2, ![N, L2]⟩) (hL2 : L2 = 2 * L)
    (hs : (⟨0, ![]⟩ : Shape).BroadcastsInDim ⟨2, ![N, L]⟩ ![]) (w : BitVec 32)
    (o : ℕ) (ho : o = 2 ^ d - 1)
    (row : Fin N → ℕ → EReal) (cur a : FVec Ideal ⟨2, ![N, L]⟩ .f32)
    (hcur : ∀ (r : Fin N) (n : Fin L), cur (ix2 r n) = leaf (Ideal.ofBits .f32 w) (row r) d n.val)
    (ha : ∀ (r : Fin N) (n : Fin L), a (ix2 r n) = row r (o + n.val))
    (r : Fin N) (n : Fin L2) :
    shapeCast ⟨2, ![N, L2]⟩ (concatenate ⟨3, ![N, L, 2]⟩ 2
        [⟨⟨3, ![N, L, 1]⟩, broadcastInDim ⟨3, ![N, L, 1]⟩ ![0, 1] hb (mulf cur a)⟩,
         ⟨⟨3, ![N, L, 1]⟩, broadcastInDim ⟨3, ![N, L, 1]⟩ ![0, 1] hb
            (mulf cur (subf (broadcastInDim ⟨2, ![N, L]⟩ ![] hs (constant (F := Ideal) ⟨0, ![]⟩ .f32 w)) a))⟩] hc) h2 (ix2 r n)
      = leaf (Ideal.ofBits .f32 w) (row r) (d + 1) n.val := by
  have hk : n.val / 2 < L := by have := n.isLt; omega
  refine (Cert.Lib.Interleave.trail_apply hL2 hb hc h2 _ _ r n ⟨n.val / 2, hk⟩ rfl).trans ?_
  show (if n.val % 2 = 0 then cur (ix2 r ⟨n.val / 2, hk⟩) * a (ix2 r ⟨n.val / 2, hk⟩)
    else cur (ix2 r ⟨n.val / 2, hk⟩) * (Ideal.ofBits .f32 w - a (ix2 r ⟨n.val / 2, hk⟩))) = _
  rw [hcur, ha, leaf_succ, ho]

end Cert.SplitTree

end
-- ==== Proof.KernelLevels.lean ====
/-
  The kernel's block, level by level.

  The body transposes its `[512, 1023]` block of fractions so that the node axis leads (`[1023, 512]`: node position
  first, the block's row second), starts from the constant row `[1, 512]`, and ten times takes the depth's fractions
  (rows `2 ^ d - 1 …` of the transposed block, `2 ^ d` of them), forms the two children and interleaves them along
  the node axis, doubling it; the last array `[1024, 512]` is transposed back. Read at `(b, n)` the stored block is
  therefore the mass reaching node `n` of depth ten from row `b` of the block (`leaf`): ten applications of the
  leading-axis level lemma, five inside the value the first part hands on and five after it.
-/
import proofs.«100825_j39118562132378_1_alg».proof.Proof.Gen.KernelIdeal.Frame
import proofs.«100825_j39118562132378_1_alg».proof.Proof.SplitSpec
import Idealize.ShloMosaic.Lib.Pipeline.Value
import Idealize.ShloMosaic.Lib.ValueLayout

noncomputable section

namespace Cert.KernelIdeal.Levels

open Cert.KernelIdeal Cert.KernelIdeal.Gen Idealize.ShloMosaic Idealize.ShloMosaic.ValueIdx Cert.SplitTree

/-- The depth's fractions: `L` rows of the transposed block from row `o` on, read at `(n, b)`, are entry `o + n` of
    row `b` of the block. -/
theorem frac (x : Vec Ideal S512x1023 .f32) {L : ℕ} (o : ℕ) (hs : S1023x512.Slices ![o, 0] ⟨2, ![L, 512]⟩)
    (n : Fin L) (b : Fin 512) :
    extractStridedSlice ⟨2, ![L, 512]⟩ ![o, 0] (k0_pay2 x) hs (ix2 n b) = rowOf x b (o + n.val) := by
  have hlt : o + n.val < 1023 := by
    have h0 : o + L ≤ 1023 := hs.2 (0 : Fin 2)
    have hn := n.isLt
    omega
  rw [rowOf_lt _ _ _ hlt]
  refine (slice2_axis0_apply o _ hs n b ⟨o + n.val, hlt⟩ rfl).trans ?_
  exact transpose_ix2_apply x transposes_S512x1023_p1_0_S1023x512 ⟨o + n.val, hlt⟩ b

/-- Depth five, as the first part of the body hands it on. -/
theorem pay3_apply (x : Vec Ideal S512x1023 .f32) (n : Fin 32) (b : Fin 512) :
    k0_pay3 x (ix2 n b) = leaf one (rowOf x b) 5 n.val := by
  unfold k0_pay3
  refine level_lead (d := 4) _ _ _ (by norm_num) 15 (by norm_num) one (rowOf x) _ _ ?_ (fun n b => frac x 15 _ n b) n b
  intro n b
  refine level_lead (d := 3) _ _ _ (by norm_num) 7 (by norm_num) one (rowOf x) _ _ ?_ (fun n b => frac x 7 _ n b) n b
  intro n b
  refine level_lead (d := 2) _ _ _ (by norm_num) 3 (by norm_num) one (rowOf x) _ _ ?_ (fun n b => frac x 3 _ n b) n b
  intro n b
  refine level_lead (d := 1) _ _ _ (by norm_num) 1 (by norm_num) one (rowOf x) _ _ ?_ (fun n b => frac x 1 _ n b) n b
  intro n b
  refine level_lead (d := 0) _ _ _ (by norm_num) 0 (by norm_num) one (rowOf x) _ _ ?_ (fun n b => frac x 0 _ n b) n b
  intro n b
  rfl

/-- Depth ten: the value the body stores, read at row `b` of the block and node `n`. -/
theorem pay1_apply (x : Vec Ideal S512x1023 .f32) (b : Fin 512) (n : Fin 1024) :
    k0_pay1 (k0_pay2 x) (k0_pay3 x) (k0_pay4 x) (k0_pay5 x) (Scalar.ofBits .f32 0x3F800000#32) (ix2 b n)
      = leaf one (rowOf x b) 10 n.val := by
  unfold k0_pay1 k0_pay5 k0_pay4
  refine (transpose_ix2_apply _ transposes_S1024x512_p1_0_S512x1024 b n).trans ?_
  refine level_lead (d := 9) _ _ _ (by norm_num) 511 (by norm_num) one (rowOf x) _ _ ?_ (fun n b => frac x 511 _ n b) n b
  intro n b
  refine level_lead (d := 8) _ _ _ (by norm_num) 255 (by norm_num) one (rowOf x) _ _ ?_ (fun n b => frac x 255 _ n b) n b
  intro n b
  refine level_lead (d := 7) _ _ _ (by norm_num) 127 (by norm_num) one (rowOf x) _ _ ?_ (fun n b => frac x 127 _ n b) n b
  intro n b
  refine level_lead (d := 6) _ _ _ (by norm_num) 63 (by norm_num) one (rowOf x) _ _ ?_ (fun n b => frac x 63 _ n b) n b
  intro n b
  refine level_lead (d := 5) _ _ _ (by norm_num) 31 (by norm_num) one (rowOf x) _ _ ?_ (fun n b => frac x 31 _ n b) n b
  exact pay3_apply x

theorem hz : (![0, 0] : Fin 2 → Nat) = fun _ => 0 := funext fun a => by fin_cases a <;> rfl

/-- What the body leaves in the output's buffer, read at `(b, n)`: its one store covers the buffer. -/
theorem out_apply (x0 : Vec Ideal S512x1023 .f32) (b : Fin 512) (n : Fin 1024) :
    out0_1 x0 (ix2 b n) = leaf one (rowOf x0 b) 10 n.val := by
  unfold out0_1
  rw [View.canon_unit_zero hz]
  simp only [View.ld_unit_zero (S := S512x1023) hz]
  exact pay1_apply x0 b n

end Cert.KernelIdeal.Levels

end
-- ==== Proof.KernelWhole.lean ====
/-
  From the kernel's blocks to its whole result.

  Grid point `t` (of 128) stages rows `512 t … 512 t + 511` of the argument, all 1023 columns, and writes back rows
  `512 t … 512 t + 511` of the result, all 1024 columns. Row `b` of the staged block is row `512 t + b` of the
  argument, so what the point writes at `(b, n)`, the mass reaching node `n` from row `b` of the block, is the
  whole-array function `leaves` of the argument at `(512 t + b, n)`: the point writes block `t` of `leaves`. The 128
  blocks tile the result (row `R` lies in block `R / 512`), so the result array ends holding `leaves` of the argument.
-/
import proofs.«100825_j39118562132378_1_alg».proof.Proof.Gen.KernelIdeal.Value
import proofs.«100825_j39118562132378_1_alg».proof.Proof.KernelLevels

noncomputable section

namespace Cert.KernelIdeal.Whole

open Cert.KernelIdeal Cert.KernelIdeal.Gen Cert.KernelIdeal.Levels
open Idealize.ShloMosaic Idealize.ShloMosaic.TcCoe Idealize.SL.Sem Idealize.ShloMosaic.ValueIdx Cert.SplitTree
open Idealize.ShloMosaic.Pipeline (Dat)

variable (m : (ℓ : Loc nD τ sig) → Buf (Elt Ideal) ℓ) (ρ : Dev nD → PrngReg)

/-- The two index maps over the grid: point `t` takes block row `t`, block column 0, of the argument and of the result. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The argument array as the region finds it. -/
abbrev argX (c : Dev nD) : (⟨2, ![65536, 1023]⟩ : Shape).Idx → EReal := V m c main_arg0

/-- Row `b` of point `t`'s input block is row `512 t + b` of the argument. -/
theorem iblk_apply (c : Dev nD) (t : Fin cfg0.N) (b : Fin 512) (k : Fin 1023) (R : Fin 65536)
    (hR : R.val = t.val * 512 + b.val) :
    (iblk m c 0 t : Vec Ideal S512x1023 .f32) (ix2 b k) = argX m c (ix2 R k) := by
  obtain ⟨e0, e1, -, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * b.val = R.val; rw [e0, hR]; omega
  | ⟨1, _⟩ => show win0_0.index t (1 : Fin 2) * 1023 + 1 * k.val = k.val; rw [e1]; omega

/-- So the two rows are one sequence of fractions. -/
theorem row_eq (c : Dev nD) (t : Fin cfg0.N) (b : Fin 512) (R : Fin 65536) (hR : R.val = t.val * 512 + b.val) :
    rowOf (iblk m c 0 t : Vec Ideal S512x1023 .f32) b = rowOf (argX m c) R := by
  funext k
  unfold rowOf
  split
  · rename_i h
    exact iblk_apply m c t b ⟨k, h⟩ R hR
  · rfl

/-- What point `t` leaves in the output's buffer at `y` is `leaves` of the argument at the array index `i` under `y`. -/
theorem block_eq (c : Dev nD) (t : Fin cfg0.N) (y : S512x1024.Idx) (i : S65536x1024.Idx)
    (hi0 : (i 0).val = t.val * 512 + (y 0).val) (hi1 : (i 1).val = (y 1).val) :
    out0_1 (iblk m c 0 t) y = leaves (K := 1024) 10 one (argX m c) i := by
  obtain ⟨b, n, rfl⟩ : ∃ (b : Fin 512) (n : Fin 1024), y = ix2 b n := ⟨y 0, y 1, eq_ix2 y⟩
  obtain ⟨R, n', rfl⟩ : ∃ (R : Fin 65536) (n' : Fin 1024), i = ix2 R n' := ⟨i 0, i 1, eq_ix2 i⟩
  have hn : n' = n := Fin.ext hi1
  subst hn
  refine (out_apply (iblk m c 0 t) b n').trans ?_
  rw [leaves_apply, row_eq m c t b R hi0]

/-- WHAT POINT `t` WRITES BACK is block `t` of `leaves` of the argument. -/
theorem flushed_eq (c : Dev nD) (t : Fin cfg0.N) :
    (dats m 0 c).flushed 1 t = ((cfg0.win 1).blk t).view.read (Elt Ideal) (leaves (K := 1024) 10 one (argX m c)) := by
  rw [Cert.KernelIdeal.Value.flushed1]
  obtain ⟨-, -, e2, e3⟩ := idx_facts t
  funext y
  show out0_1 (iblk m c 0 t) y = leaves (K := 1024) 10 one (argX m c) (((cfg0.win 1).blk t).view.emb y)
  refine block_eq m c t y _ ?_ ?_
  · show win0_1.index t (0 : Fin 2) * 512 + 1 * (y 0).val = t.val * 512 + (y 0).val
    rw [e2]; omega
  · show win0_1.index t (1 : Fin 2) * 1024 + 1 * (y 1).val = (y 1).val
    rw [e3]; omega

/-- Every index of the result lies in some point's block: row `R` in block `R / 512`. -/
theorem cover (i : S65536x1024.Idx) :
    ∃ t : Fin cfg0.N, (cfg0.win 1).flush t = true ∧ i ∈ ((cfg0.win 1).blk t).view.set := by
  have h0 : (i 0).val < 65536 := (i 0).isLt
  have h1 : (i 1).val < 1024 := (i 1).isLt
  have hN : (i 0).val / 512 < cfg0.N := by
    show _ < grid0.N
    rw [N_0]; omega
  obtain ⟨-, -, e2, e3⟩ := idx_facts ⟨(i 0).val / 512, hN⟩
  refine ⟨⟨(i 0).val / 512, hN⟩, flush0_1 _, ?_⟩
  show i ∈ ((View.whole main_v0).slice (win0_1.rect ⟨(i 0).val / 512, hN⟩)).set
  rw [View.set_slice_whole, Rect.mem_set_unit]
  intro a
  match a with
  | ⟨0, _⟩ =>
    show win0_1.index ⟨(i 0).val / 512, hN⟩ (0 : Fin 2) * 512 ≤ (i 0).val
      ∧ (i 0).val < win0_1.index ⟨(i 0).val / 512, hN⟩ (0 : Fin 2) * 512 + 512
    rw [e2]
    show (i 0).val / 512 * 512 ≤ (i 0).val ∧ (i 0).val < (i 0).val / 512 * 512 + 512
    omega
  | ⟨1, _⟩ =>
    show win0_1.index ⟨(i 0).val / 512, hN⟩ (1 : Fin 2) * 1024 ≤ (i 1).val
      ∧ (i 1).val < win0_1.index ⟨(i 0).val / 512, hN⟩ (1 : Fin 2) * 1024 + 1024
    rw [e3]
    omega

/-- THE RESULT ARRAY after the run is `leaves` of the argument. -/
theorem final (c : Dev nD) : (dats m 0 c).arrAt 1 cfg0.N = leaves (K := 1024) 10 one (argX m c) :=
  (dats m 0 c).arrAt_eq_of_cover 1 (leaves (K := 1024) 10 one (argX m c)) (fun t _ => flushed_eq m c t) cover

/-- The kernel's run, read: the result at `leaves` of the argument, the argument unchanged. -/
theorem run : θ_run defs (onTc (τ := τ) (main (F := Ideal))) ⟨m, fun _ => 0, ρ⟩ fun r => ∀ c : Dev nD,
      r.2.mem ((c : Thread nD τ).loc main_v0) = leaves (K := 1024) 10 one (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Whole

end
-- ==== Proof.RefStages.lean ====
/-
  The reference's run, one level at a time.

  The reference's 102 host operations fall into ten stretches, one per depth of the tree: the first twelve
  operations compute depth one from the constant column and column 0 of the argument; each later stretch of ten
  operations takes the array of the depth before and the next band of columns of the argument and computes the next
  depth. Running the operations up to the end of stretch `k` is running the operations up to the end of stretch
  `k - 1` and then stretch `k` alone; a stretch alone reads only the array of the depth before and the argument, and
  never writes the argument. So, stretch by stretch, the depth's buffer holds the term the generated definitions
  `res_main_v9`, `res_main_v18`, … name, the argument is as launched, and after the last stretch the result buffer
  holds `res_out`, the tenth level over `res_main_v81`. No stretch ever compares more than one level of terms.
-/
import proofs.«100825_j39118562132378_1_alg».proof.Proof.RefRun
import Idealize.ShloMosaic.Lib.StableHlo.Run

noncomputable section

namespace Cert.ReferenceIdeal.Stages

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- Two lines of operations in a row: the contents after both are the contents after the second, from the contents
    after the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first `k = i + j` operations of a line are its first `i`, then the `j` that follow. -/
theorem after_take (l : List (HloOp τ sig (Elt F))) (i j k : ℕ) (hk : k = i + j) (V : Valuation τ sig (Elt F)) :
    after (l.take k) V = after ((l.drop i).take j) (after (l.take i) V) := by
  subst hk
  rw [List.take_add, after_app]

variable (X : Valuation τ sig (Elt F))

/-- Depth one: the first twelve operations. -/
theorem st1 : after (ops.take 12) X (Proc.devRef .tc main_v9) = res_main_v9 X
    ∧ after (ops.take 12) X (Proc.devRef .tc main_arg0) = X (Proc.devRef .tc main_arg0) := by
  constructor
  · show after [_, _, _, _, _, _, _, _, _, _, _, _] X _ = _
    after_results
    rfl
  · show after [_, _, _, _, _, _, _, _, _, _, _, _] X _ = _
    after_results

/-- Depth two: operations 13 to 22. -/
theorem st2 : after (ops.take 22) X (Proc.devRef .tc main_v18) = res_main_v18 X
    ∧ after (ops.take 22) X (Proc.devRef .tc main_arg0) = X (Proc.devRef .tc main_arg0) := by
  obtain ⟨hc, ha⟩ := st1 X
  rw [after_take ops 12 10 22 rfl]
  generalize after (List.take 12 ops) X = Y at hc ha ⊢
  constructor
  · show after [_, _, _, _, _, _, _, _, _, _] Y _ = _
    after_results
    rw [hc, ha]
    rfl
  · show after [_, _, _, _, _, _, _, _, _, _] Y _ = _
    after_results
    exact ha

/-- Depth three: operations 23 to 32. -/
theorem st3 : after (ops.take 32) X (Proc.devRef .tc main_v27) = res_main_v27 X
    ∧ after (ops.take 32) X (Proc.devRef .tc main_arg0) = X (Proc.devRef .tc main_arg0) := by
  obtain ⟨hc, ha⟩ := st2 X
  rw [after_take ops 22 10 32 rfl]
  generalize after (List.take 22 ops) X = Y at hc ha ⊢
  constructor
  · show after [_, _, _, _, _, _, _, _, _, _] Y _ = _
    after_results
    rw [hc, ha]
    rfl
  · show after [_, _, _, _, _, _, _, _, _, _] Y _ = _
    after_results
    exact ha

/-- Depth four: operations 33 to 42. -/
theorem st4 : after (ops.take 42) X (Proc.devRef .tc main_v36) = res_main_v36 X
    ∧ after (ops.take 42) X (Proc.devRef .tc main_arg0) = X (Proc.devRef .tc main_arg0) := by
  obtain ⟨hc, ha⟩ := st3 X
  rw [after_take ops 32 10 42 rfl]
  generalize after (List.take 32 ops) X = Y at hc ha ⊢
  constructor
  · show after [_, _, _, _, _, _, _, _, _, _] Y _ = _
    after_results
    rw [hc, ha]
    rfl
  · show after [_, _, _, _, _, _, _, _, _, _] Y _ = _
    after_results
    exact ha

/-- Depth five: operations 43 to 52. -/
theorem st5 : after (ops.take 52) X (Proc.devRef .tc main_v45) = res_main_v45 X
    ∧ after (ops.take 52) X (Proc.devRef .tc main_arg0) = X (Proc.devRef .tc main_arg0) := by
  obtain ⟨hc, ha⟩ := st4 X
  rw [after_take ops 42 10 52 rfl]
  generalize after (List.take 42 ops) X = Y at hc ha ⊢
  constructor
  · show after [_, _, _, _, _, _, _, _, _, _] Y _ = _
    after_results
    rw [hc, ha]
    rfl
  · show after [_, _, _, _, _, _, _, _, _, _] Y _ = _
    after_results
    exact ha

/-- Depth six: operations 53 to 62. -/
theorem st6 : after (ops.take 62) X (Proc.devRef .tc main_v54) = res_main_v54 X
    ∧ after (ops.take 62) X (Proc.devRef .tc main_arg0) = X (Proc.devRef .tc main_arg0) := by
  obtain ⟨hc, ha⟩ := st5 X
  rw [after_take ops 52 10 62 rfl]
  generalize after (List.take 52 ops) X = Y at hc ha ⊢
  constructor
  · show after [_, _, _, _, _, _, _, _, _, _] Y _ = _
    after_results
    rw [hc, ha]
    rfl
  · show after [_, _, _, _, _, _, _, _, _, _] Y _ = _
    after_results
    exact ha

/-- Depth seven: operations 63 to 72. -/
theorem st7 : after (ops.take 72) X (Proc.devRef .tc main_v63) = res_main_v63 X
    ∧ after (ops.take 72) X (Proc.devRef .tc main_arg0) = X (Proc.devRef .tc main_arg0) := by
  obtain ⟨hc, ha⟩ := st6 X
  rw [after_take ops 62 10 72 rfl]
  generalize after (List.take 62 ops) X = Y at hc ha ⊢
  constructor
  · show after [_, _, _, _, _, _, _, _, _, _] Y _ = _
    after_results
    rw [hc, ha]
    rfl
  · show after [_, _, _, _, _, _, _, _, _, _] Y _ = _
    after_results
    exact ha

/-- Depth eight: operations 73 to 82. -/
theorem st8 : after (ops.take 82) X (Proc.devRef .tc main_v72) = res_main_v72 X
    ∧ after (ops.take 82) X (Proc.devRef .tc main_arg0) = X (Proc.devRef .tc main_arg0) := by
  obtain ⟨hc, ha⟩ := st7 X
  rw [after_take ops 72 10 82 rfl]
  generalize after (List.take 72 ops) X = Y at hc ha ⊢
  constructor
  · show after [_, _, _, _, _, _, _, _, _, _] Y _ = _
    after_results
    rw [hc, ha]
    rfl
  · show after [_, _, _, _, _, _, _, _, _, _] Y _ = _
    after_results
    exact ha

/-- Depth nine: operations 83 to 92. -/
theorem st9 : after (ops.take 92) X (Proc.devRef .tc main_v81) = res_main_v81 X
    ∧ after (ops.take 92) X (Proc.devRef .tc main_arg0) = X (Proc.devRef .tc main_arg0) := by
  obtain ⟨hc, ha⟩ := st8 X
  rw [after_take ops 82 10 92 rfl]
  generalize after (List.take 82 ops) X = Y at hc ha ⊢
  constructor
  · show after [_, _, _, _, _, _, _, _, _, _] Y _ = _
    after_results
    rw [hc, ha]
    rfl
  · show after [_, _, _, _, _, _, _, _, _, _] Y _ = _
    after_results
    exact ha

/-- The result's term: depth ten over the named depth nine and the last band of columns (the text of the generated
    run's statement). -/
def res_out (V0 : Valuation τ sig (Elt F)) : (Proc.devRef .tc main_v90 : DevRef τ sig).ty.Contents (Elt F) :=
  shapeCast _ (concatenate S65536x512x2 2 [⟨S65536x512x1, (broadcastInDim S65536x512x1 ![0, 1] bcast_S65536x512_S65536x512x1_0_1 (mulf (res_main_v81 V0) (res_main_v82 V0)))⟩, ⟨S65536x512x1, (broadcastInDim S65536x512x1 ![0, 1] bcast_S65536x512_S65536x512x1_0_1 (mulf (res_main_v81 V0) (subf (broadcastInDim S65536x512 ![] bcast_S_S65536x512 (constant S_ .f32 0x3F800000#32)) (res_main_v82 V0))))⟩] concatenates_S65536x512x1_S65536x512x1_S65536x512x2_d2) shapeCasts_S65536x512x2_S65536x1024

/-- Depth ten, the whole line: operations 93 to 102. -/
theorem st10 : after ops X (Proc.devRef .tc main_v90) = res_out X
    ∧ after ops X (Proc.devRef .tc main_arg0) = X (Proc.devRef .tc main_arg0) := by
  obtain ⟨hc, ha⟩ := st9 X
  show after (List.take 102 ops) X (Proc.devRef .tc main_v90) = res_out X
    ∧ after (List.take 102 ops) X (Proc.devRef .tc main_arg0) = X (Proc.devRef .tc main_arg0)
  rw [after_take ops 92 10 102 rfl]
  generalize after (List.take 92 ops) X = Y at hc ha ⊢
  constructor
  · show after [_, _, _, _, _, _, _, _, _, _] Y _ = _
    after_results
    rw [hc, ha]
    rfl
  · show after [_, _, _, _, _, _, _, _, _, _] Y _ = _
    after_results
    exact ha

/-- The run, read: the result buffer at `res_out` of the launch contents, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90) = res_out (launchContents m c)
      ∧ r.2.mem ((c.tc : Thread nD τ).loc main_arg0) = m ((c.tc : Thread nD τ).loc main_arg0) :=
  (θ_run defs _ _).mono (fun _ h c => ⟨(h c main_v90).trans (st10 (launchContents m c)).1,
      (h c main_arg0).trans (st10 (launchContents m c)).2⟩)
    (run_after m ρ)

end Cert.ReferenceIdeal.Stages

end
-- ==== Proof.RefLevels.lean ====
/-
  The reference, level by level.

  The reference keeps the row's number on the leading axis and the nodes on the trailing one: from the constant
  column `[65536, 1]` it takes, ten times, the depth's fractions (columns `2 ^ d - 1 …` of the argument, `2 ^ d` of
  them), forms the two children and interleaves them along the node axis. The generated definitions name the array after
  each of the first nine levels (Proof/RefStages.lean shows the run leaves them there); each is read here at `(r, n)` as the mass reaching node `n` of that depth from row
  `r` of the argument (`leaf`), by the trailing-axis level lemma from the level before; the tenth level is the
  run's result, and is the whole-array function `leaves`.
-/
import proofs.«100825_j39118562132378_1_alg».proof.Proof.RefStages
import proofs.«100825_j39118562132378_1_alg».proof.Proof.SplitSpec
import Idealize.ShloMosaic.Lib.Pipeline.Value
import Idealize.ShloMosaic.Lib.ValueLayout

noncomputable section

namespace Cert.ReferenceIdeal.Levels

open Cert.ReferenceIdeal Cert.ReferenceIdeal.Gen Cert.ReferenceIdeal.Value Cert.ReferenceIdeal.Stages
open Idealize.ShloMosaic Idealize.ShloMosaic.ValueIdx Idealize.ShloMosaic.StableHlo Cert.SplitTree

variable (V0 : Valuation τ sig (Elt Ideal))

/-- The argument array. -/
abbrev arg : (⟨2, ![65536, 1023]⟩ : Shape).Idx → EReal := V0 (Proc.devRef .tc main_arg0)

/-- The depth's fractions: `L` columns of the argument from column `o` on, read at `(r, n)`, are entry `o + n` of
    row `r`. -/
theorem frac {L : ℕ} (o : ℕ) (hs : S65536x1023.Slices ![0, o] ⟨2, ![65536, L]⟩) (r : Fin 65536) (n : Fin L) :
    extractStridedSlice ⟨2, ![65536, L]⟩ ![0, o] (arg V0) hs (ix2 r n) = rowOf (arg V0) r (o + n.val) := by
  have hlt : o + n.val < 1023 := by
    have h0 : o + L ≤ 1023 := hs.2 (1 : Fin 2)
    have hn := n.isLt
    omega
  rw [rowOf_lt _ _ _ hlt]
  exact slice2_axis1_apply o _ hs r n ⟨o + n.val, hlt⟩ rfl

/-- Depth zero: the constant column. -/
theorem res0 (r : Fin 65536) (n : Fin 1) : res_main_v0 V0 (ix2 r n) = leaf one (rowOf (arg V0) r) 0 n.val := by
  unfold res_main_v0
  rfl

/-- Depth one, from the constant column and column 0. -/
theorem res9 (r : Fin 65536) (n : Fin 2) : res_main_v9 V0 (ix2 r n) = leaf one (rowOf (arg V0) r) 1 n.val := by
  unfold res_main_v9
  refine level_trail (d := 0) _ _ _ (by norm_num) _ _ 0 (by norm_num) (rowOf (arg V0)) (res_main_v0 V0) (res_main_v1 V0) (res0 V0) ?_ r n
  intro r n
  unfold res_main_v1
  exact frac V0 0 _ r n

/-- Depth two, from depth one and columns 1, 2. -/
theorem res18 (r : Fin 65536) (n : Fin 4) : res_main_v18 V0 (ix2 r n) = leaf one (rowOf (arg V0) r) 2 n.val := by
  unfold res_main_v18
  refine level_trail (d := 1) _ _ _ (by norm_num) _ _ 1 (by norm_num) (rowOf (arg V0)) (res_main_v9 V0) (res_main_v10 V0) (res9 V0) ?_ r n
  intro r n
  unfold res_main_v10
  exact frac V0 1 _ r n

/-- Depth three, from depth two and columns 3 … 6. -/
theorem res27 (r : Fin 65536) (n : Fin 8) : res_main_v27 V0 (ix2 r n) = leaf one (rowOf (arg V0) r) 3 n.val := by
  unfold res_main_v27
  refine level_trail (d := 2) _ _ _ (by norm_num) _ _ 3 (by norm_num) (rowOf (arg V0)) (res_main_v18 V0) (res_main_v19 V0) (res18 V0) ?_ r n
  intro r n
  unfold res_main_v19
  exact frac V0 3 _ r n

/-- Depth four, from depth three and columns 7 … 14. -/
theorem res36 (r : Fin 65536) (n : Fin 16) : res_main_v36 V0 (ix2 r n) = leaf one (rowOf (arg V0) r) 4 n.val := by
  unfold res_main_v36
  refine level_trail (d := 3) _ _ _ (by norm_num) _ _ 7 (by norm_num) (rowOf (arg V0)) (res_main_v27 V0) (res_main_v28 V0) (res27 V0) ?_ r n
  intro r n
  unfold res_main_v28
  exact frac V0 7 _ r n

/-- Depth five, from depth four and columns 15 … 30. -/
theorem res45 (r : Fin 65536) (n : Fin 32) : res_main_v45 V0 (ix2 r n) = leaf one (rowOf (arg V0) r) 5 n.val := by
  unfold res_main_v45
  refine level_trail (d := 4) _ _ _ (by norm_num) _ _ 15 (by norm_num) (rowOf (arg V0)) (res_main_v36 V0) (res_main_v37 V0) (res36 V0) ?_ r n
  intro r n
  unfold res_main_v37
  exact frac V0 15 _ r n

/-- Depth six, from depth five and columns 31 … 62. -/
theorem res54 (r : Fin 65536) (n : Fin 64) : res_main_v54 V0 (ix2 r n) = leaf one (rowOf (arg V0) r) 6 n.val := by
  unfold res_main_v54
  refine level_trail (d := 5) _ _ _ (by norm_num) _ _ 31 (by norm_num) (rowOf (arg V0)) (res_main_v45 V0) (res_main_v46 V0) (res45 V0) ?_ r n
  intro r n
  unfold res_main_v46
  exact frac V0 31 _ r n

/-- Depth seven, from depth six and columns 63 … 126. -/
theorem res63 (r : Fin 65536) (n : Fin 128) : res_main_v63 V0 (ix2 r n) = leaf one (rowOf (arg V0) r) 7 n.val := by
  unfold res_main_v63
  refine level_trail (d := 6) _ _ _ (by norm_num) _ _ 63 (by norm_num) (rowOf (arg V0)) (res_main_v54 V0) (res_main_v55 V0) (res54 V0) ?_ r n
  intro r n
  unfold res_main_v55
  exact frac V0 63 _ r n

/-- Depth eight, from depth seven and columns 127 … 254. -/
theorem res72 (r : Fin 65536) (n : Fin 256) : res_main_v72 V0 (ix2 r n) = leaf one (rowOf (arg V0) r) 8 n.val := by
  unfold res_main_v72
  refine level_trail (d := 7) _ _ _ (by norm_num) _ _ 127 (by norm_num) (rowOf (arg V0)) (res_main_v63 V0) (res_main_v64 V0) (res63 V0) ?_ r n
  intro r n
  unfold res_main_v64
  exact frac V0 127 _ r n

/-- Depth nine, from depth eight and columns 255 … 510. -/
theorem res81 (r : Fin 65536) (n : Fin 512) : res_main_v81 V0 (ix2 r n) = leaf one (rowOf (arg V0) r) 9 n.val := by
  unfold res_main_v81
  refine level_trail (d := 8) _ _ _ (by norm_num) _ _ 255 (by norm_num) (rowOf (arg V0)) (res_main_v72 V0) (res_main_v73 V0) (res72 V0) ?_ r n
  intro r n
  unfold res_main_v73
  exact frac V0 255 _ r n

/-- Depth ten, the result, from depth nine and columns 511 … 1022: the run's result term is `leaves` of the
    argument. -/
theorem result_eq : res_out V0 = leaves (K := 1024) 10 one (arg V0) := by
  funext i
  obtain ⟨r, n, rfl⟩ : ∃ (r : Fin 65536) (n : Fin 1024), i = ix2 r n := ⟨i 0, i 1, eq_ix2 i⟩
  rw [leaves_apply]
  unfold res_out
  refine level_trail (d := 9) _ _ _ (by norm_num) _ _ 511 (by norm_num) (rowOf (arg V0)) (res_main_v81 V0) (res_main_v82 V0) (res81 V0) ?_ r n
  intro r n
  unfold res_main_v82
  exact frac V0 511 _ r n

end Cert.ReferenceIdeal.Levels

end
-- ==== Proof.lean ====
/-
  A binary split decoder: each row of 1023 fractions, laid out depth by depth as a complete binary tree of depth ten,
  is turned into the 1024 masses that reach the leaves, a node handing its mass times its fraction to its even child
  and its mass times (1 − fraction) to its odd child, starting from mass 1 at the root.

  The kernel does this on blocks of 512 rows with the node axis in front (it transposes the block on entry and the
  result on exit, and interleaves the two children along the leading axis); the reference does it on the whole array
  with the node axis behind (it interleaves along the trailing axis). Both perform, for every row and every leaf, the
  same ten multiplications in the same order with the same constant word, so the two results are one function of the
  argument, `SplitTree.leaves`: the mass at leaf `n` of row `R` is `SplitTree.leaf`, defined by recursion on the
  depth (Proof/SplitSpec.lean). No law of arithmetic is used, only where each array keeps which entry:

  * Proof/LibInterleave.lean — two arrays interleaved along a leading or a trailing axis, read at an index;
  * Proof/SplitSpec.lean — the tree, and one level of it in either layout;
  * Proof/KernelLevels.lean — the kernel's stored block is depth ten of its input block;
  * Proof/KernelWhole.lean — the 128 blocks tile the result: the kernel's array is `leaves` of the argument;
  * Proof/RefRun.lean, Proof/RefStages.lean — the reference's run: after each level's stretch of operations the level's
    buffer holds the level's term, the argument untouched;
  * Proof/RefLevels.lean — those terms, level by level, are `leaf`; the result is `leaves` of the argument.

  The three frames are the generated ones (the reference's is its run with the result dropped); the idealization
  rewrote nothing, so `preserves` asks nothing; the precondition (finite inputs) is not used.
-/
import proofs.«100825_j39118562132378_1_alg».proof.Defs
import proofs.«100825_j39118562132378_1_alg».proof.Proof.Gen.Kernel
import proofs.«100825_j39118562132378_1_alg».proof.Proof.Gen.Kernel.Skeleton
import proofs.«100825_j39118562132378_1_alg».proof.Proof.Gen.Kernel.Launch
import proofs.«100825_j39118562132378_1_alg».proof.Proof.Gen.Kernel.Points
import proofs.«100825_j39118562132378_1_alg».proof.Proof.Gen.Kernel.Frame
import proofs.«100825_j39118562132378_1_alg».proof.Proof.Gen.KernelIdeal
import proofs.«100825_j39118562132378_1_alg».proof.Proof.Gen.KernelIdeal.Skeleton
import proofs.«100825_j39118562132378_1_alg».proof.Proof.Gen.KernelIdeal.Launch
import proofs.«100825_j39118562132378_1_alg».proof.Proof.Gen.KernelIdeal.Points
import proofs.«100825_j39118562132378_1_alg».proof.Proof.Gen.KernelIdeal.Frame
import proofs.«100825_j39118562132378_1_alg».proof.Proof.Gen.ReferenceIdeal
import proofs.«100825_j39118562132378_1_alg».proof.Proof.Gen.Pre_finite_inputs
import proofs.«100825_j39118562132378_1_alg».proof.Proof.Gen.KernelIdeal.Value
import proofs.«100825_j39118562132378_1_alg».proof.Proof.KernelWhole
import proofs.«100825_j39118562132378_1_alg».proof.Proof.RefLevels
import Idealize.ShloMosaic.Adequacy
import Idealize.ShloMosaic.Init

noncomputable section

namespace Cert.Proof

open Idealize.ShloMosaic Idealize.ShloMosaic.TcCoe Idealize.SL.Sem Cert.SplitTree

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- Both results are `leaves` of the argument: the kernel's by its blocks, the reference's by its levels. -/
theorem algebraic : Cert.algebraic_KernelIdeal_ReferenceIdeal := by
  intro m ρ m' ρ' _ hagree
  refine ⟨fun c => leaves (K := 1024) 10 one (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Stages.run (F := Ideal) m' ρ')
  refine (Cert.ReferenceIdeal.Levels.result_eq (StableHlo.launchContents m' c)).trans ?_
  exact congrArg (leaves (K := 1024) 10 one) (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
